-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x1024 : Shape := ⟨2, ![2048, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S2048x1024 .f32) (main_arg3 : FVec F S2048x1024 .f32) (main_arg4 : FVec F S2048x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Kernel.lean ====
abbrev S16384x1024 : Shape := ⟨2, ![16384, 1024]⟩
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 18
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2048x1024_S1024x1024_0_0 : S2048x1024.Slices ![0, 0] S1024x1024
  slices_S2048x1024_S1024x1024_1024_0 : S2048x1024.Slices ![1024, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S16384x1024.size a
  hwx0_8 : ∀ i : grid0.Coords, EltTy.bits .f32 = 32 ∨ (Rect.block (s := S16384x1024) S512x1024.size (cc0_transform_8 i) (hinb0_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x1024 : Shape := ⟨2, ![2048, 1024]⟩
abbrev S16384x2048 : Shape := ⟨2, ![16384, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S16384x2048, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x2048, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  bcast_S_S16384x1024 : S_.BroadcastsInDim S16384x1024 (![] : Fin 0 → Fin S16384x1024.rank)
  dot_S16384x2048_S2048x1024_S16384x1024_1_0_0_1_n_n_wf : DotDims.WF S16384x2048 S2048x1024 S16384x1024 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.Spec.lean ====
/-
  One GRU step as a function of its five argument arrays, entry by entry.

  With h, x : [16384, 1024] and three weight matrices W : [2048, 1024], write [a, x] · W for the product of the
  row (a, x) of length 2048 with W; its contraction splits at 1024 into a's row against W's upper 1024 rows plus x's
  row against W's lower 1024 rows. Then, at row b and column j,

      r(b, k)  = σ([h, x] · W_r)(b, k)                       the reset gate
      z(b, j)  = σ([h, x] · W_z)(b, j)                       the update gate
      c(b, j)  = tanh([r ⊙ h, x] · W_h)(b, j)                the candidate
      out(b,j) = (1 − z(b, j)) · h(b, j) + z(b, j) · c(b, j)

  over the extended reals, with σ u = 1 / (1 + e^(−u)) by the conventions of division and the exponential there. An
  entry of the result depends on one row of h, one row of x and the six half-matrices only: `cell` is that function
  of the two rows and the six halves, and `G` reads it off the whole arrays. The one float literal, 1.0, is kept as
  its word; only inside σ is it read as the number 1.
-/
import Idealize.ShloMosaic.PureOps.Ideal
import Idealize.ShloMosaic.PureOps.Ideal.Laws
import Idealize.ShloMosaic.PureOps.IdealRules
import Idealize.ShloMosaic.Lib.ValueIdx

noncomputable section

namespace Cert.Gru

open Idealize.ShloMosaic Idealize.ShloMosaic.ValueIdx

/-- The shape of h, x and the result. -/
abbrev SBH : Shape := ⟨2, ![16384, 1024]⟩
/-- The shape of each weight matrix. -/
abbrev SWW : Shape := ⟨2, ![2048, 1024]⟩

/-- Row k of a weight matrix's upper half: the rows that meet h. -/
def up (k : Fin 1024) : Fin 2048 := ⟨k.val, by omega⟩
/-- Row 1024 + k, in the lower half: the rows that meet x. -/
def dn (k : Fin 1024) : Fin 2048 := ⟨1024 + k.val, by omega⟩

@[simp] theorem up_val (k : Fin 1024) : (up k).val = k.val := rfl
@[simp] theorem dn_val (k : Fin 1024) : (dn k).val = 1024 + k.val := rfl

/-- The float word of 1.0, as the extended real it denotes. -/
def one32 : EReal := Ideal.ofBits .f32 0x3F800000#32

/-- The word of 1.0 denotes the number 1. -/
theorem one32_eq : one32 = 1 := IdealRules.sign_bit.ideal_onePat .f32

/-- A row (a, x) of length 2048 against a column given as its upper half wa and its lower half wx. -/
def dot2 (a x wa wx : Fin 1024 → EReal) : EReal := (∑ k : Fin 1024, a k * wa k) + ∑ k : Fin 1024, x k * wx k

/-- One entry of the new state from a row of h, a row of x and the six half-matrices (rows × columns), at column q. -/
def cell (hr xr : Fin 1024 → EReal) (wrh wrx wzh wzx whh whx : Fin 1024 → Fin 1024 → EReal) (q : Fin 1024) : EReal :=
  (one32 - Ideal.logistic (dot2 hr xr (fun k => wzh k q) (fun k => wzx k q))) * hr q
    + Ideal.logistic (dot2 hr xr (fun k => wzh k q) (fun k => wzx k q))
      * Ideal.tanh (dot2 (fun k => Ideal.logistic (dot2 hr xr (fun k' => wrh k' k) (fun k' => wrx k' k)) * hr k) xr
          (fun k => whh k q) (fun k => whx k q))

/-- The upper half of a weight matrix, rows × columns. -/
def upper (W : FVec Ideal SWW .f32) : Fin 1024 → Fin 1024 → EReal := fun k j => W (ix2 (up k) j)
/-- The lower half. -/
def lower (W : FVec Ideal SWW .f32) : Fin 1024 → Fin 1024 → EReal := fun k j => W (ix2 (dn k) j)

/-- The new state at (b, j). -/
def out (h x : FVec Ideal SBH .f32) (Wr Wz Wh : FVec Ideal SWW .f32) (b : Fin 16384) (j : Fin 1024) : EReal :=
  cell (fun k => h (ix2 b k)) (fun k => x (ix2 b k)) (upper Wr) (lower Wr) (upper Wz) (lower Wz) (upper Wh) (lower Wh) j

/-- The whole result array. -/
def G (h x : FVec Ideal SBH .f32) (Wr Wz Wh : FVec Ideal SWW .f32) : FVec Ideal SBH .f32 :=
  fun i => out h x Wr Wz Wh (i 0) (i 1)

theorem G_ix2 (h x : FVec Ideal SBH .f32) (Wr Wz Wh : FVec Ideal SWW .f32) (b : Fin 16384) (j : Fin 1024) :
    G h x Wr Wz Wh (ix2 b j) = out h x Wr Wz Wh b j := rfl

/-- σ as the host spells it, 1.0 / (1.0 + e^(−u)) with the literal's word, is σ. -/
theorem sigma_host (u : EReal) : Ideal.div one32 (one32 + Ideal.exp (-u)) = Ideal.logistic u := by
  rw [one32_eq]; rfl

/-- A sum over 2048 indices splits at 1024. -/
theorem sum_split (f : Fin 2048 → EReal) :
    ∑ k : Fin 2048, f k = (∑ k : Fin 1024, f (up k)) + ∑ k : Fin 1024, f (dn k) := by
  rw [Fin.sum_univ_add (a := 1024) (b := 1024) f]
  rfl

end Cert.Gru

end
-- ==== Proof.RefValue.lean ====
/-
  The reference's result is `G` of the argument arrays.

  The reference joins h and x (or r ⊙ h and x) along the columns into rows of length 2048 and multiplies by a whole
  weight matrix. A row of the joined array read at a column below 1024 is the first piece's row, at 1024 + k the second
  piece's at k; so the sum over the 2048 contracted columns, split at 1024, is the first piece's row against the upper
  half of the matrix plus the second piece's row against the lower half. The host spells σ as 1.0 / (1.0 + e^(−u)),
  which is σ. Everything else is entry by entry the same arithmetic as in `cell`.
-/
import proofs.«100389_j58402965291333_1_alg».proof.Proof.Gen.ReferenceIdeal.Read
import proofs.«100389_j58402965291333_1_alg».proof.Proof.Spec

noncomputable section

namespace Cert.Gru.Ref

open Idealize.ShloMosaic Idealize.ShloMosaic.ValueIdx Cert.ReferenceIdeal Cert.ReferenceIdeal.Gen Cert.ReferenceIdeal.Read Cert.Gru

/-- Two [16384, 1024] arrays joined along the columns. -/
abbrev cat (a b : (⟨S16384x1024, .f32⟩ : BufTy).Contents (Elt Ideal)) : (⟨S16384x2048, .f32⟩ : BufTy).Contents (Elt Ideal) :=
  concatenate S16384x2048 1 [⟨S16384x1024, a⟩, ⟨S16384x1024, b⟩] concatenates_S16384x1024_S16384x1024_S16384x2048_d1

/-- The left operand's index of a product at output index i and contracted column k: row i 0, column k. -/
abbrev lix (i : S16384x1024.Idx) (k : Fin 2048) : S16384x2048.Idx := fun a => match a with
  | ⟨0, _⟩ => ⟨(i 0).val, (i 0).isLt⟩
  | ⟨1, _⟩ => ⟨k.val, k.isLt⟩
/-- The right operand's: row k, column i 1. -/
abbrev rix (i : S16384x1024.Idx) (k : Fin 2048) : S2048x1024.Idx := fun a => match a with
  | ⟨0, _⟩ => ⟨k.val, k.isLt⟩
  | ⟨1, _⟩ => ⟨(i 1).val, (i 1).isLt⟩

theorem rix_eq (i : S16384x1024.Idx) (k : Fin 2048) : rix i k = ix2 k (i 1) :=
  funext fun a => by
    match a with
    | ⟨0, _⟩ => rfl
    | ⟨1, _⟩ => rfl

/-- The joined array at a column of the first half. -/
theorem cat_up (a b : (⟨S16384x1024, .f32⟩ : BufTy).Contents (Elt Ideal)) (i : S16384x1024.Idx) (k : Fin 1024) :
    cat a b (lix i (up k)) = a (ix2 (i 0) k) := by
  refine concatenate_pair_apply_left (t := S16384x2048) (1 : Fin 2) a b concatenates_S16384x1024_S16384x1024_S16384x2048_d1
    (lix i (up k)) rfl (ix2 (i 0) k) fun bb => ?_
  match bb with
  | ⟨0, _⟩ => rfl
  | ⟨1, _⟩ => rfl

/-- The joined array at a column of the second half. -/
theorem cat_dn (a b : (⟨S16384x1024, .f32⟩ : BufTy).Contents (Elt Ideal)) (i : S16384x1024.Idx) (k : Fin 1024) :
    cat a b (lix i (dn k)) = b (ix2 (i 0) k) := by
  refine concatenate_pair_apply_right (t := S16384x2048) (1 : Fin 2) a b concatenates_S16384x1024_S16384x1024_S16384x2048_d1
    (lix i (dn k)) rfl rfl (ix2 (i 0) k) (fun bb hb => ?_) ?_
  · match bb with
    | ⟨0, _⟩ => rfl
    | ⟨1, _⟩ => exact absurd rfl hb
  · show k.val + 1024 = 1024 + k.val
    omega

/-- A row of a joined array against a column of a whole weight matrix: the contraction split at 1024. -/
theorem dot_cat (a b : (⟨S16384x1024, .f32⟩ : BufTy).Contents (Elt Ideal)) (W : (⟨S2048x1024, .f32⟩ : BufTy).Contents (Elt Ideal))
    (i : S16384x1024.Idx) :
    ∑ k : Fin 2048, cat a b (lix i k) * W (rix i k)
      = dot2 (fun k => a (ix2 (i 0) k)) (fun k => b (ix2 (i 0) k)) (fun k => upper W k (i 1)) (fun k => lower W k (i 1)) := by
  rw [sum_split]
  show _ = (∑ k : Fin 1024, a (ix2 (i 0) k) * W (ix2 (up k) (i 1))) + ∑ k : Fin 1024, b (ix2 (i 0) k) * W (ix2 (dn k) (i 1))
  congr 1
  · refine Finset.sum_congr rfl fun k _ => ?_
    rw [cat_up, rix_eq]
    rfl
  · refine Finset.sum_congr rfl fun k _ => ?_
    rw [cat_dn, rix_eq]
    rfl

variable (x0 x1 : (⟨S16384x1024, .f32⟩ : BufTy).Contents (Elt Ideal)) (x2 x3 x4 : (⟨S2048x1024, .f32⟩ : BufTy).Contents (Elt Ideal))

/-- The reset gate at (b, k). -/
theorem gate_r (b : Fin 16384) (k : Fin 1024) :
    val_main_v7 (F := Ideal) x0 x1 x2 (ix2 b k)
      = Ideal.logistic (dot2 (fun k' => x0 (ix2 b k')) (fun k' => x1 (ix2 b k')) (fun k' => upper x2 k' k) (fun k' => lower x2 k' k)) := by
  rw [val_main_v7_apply, val_main_v6_apply, val_main_cst_0_apply, val_main_v5_apply, val_main_v4_apply, val_main_cst_apply,
    val_main_v3_apply, val_main_v2_apply, val_main_v1_apply]
  unfold val_main_v0
  rw [show (∑ k' : Fin 2048, cat x0 x1 (lidx_main_v1 (ix2 b k) k') * x2 (ridx_main_v1 (ix2 b k) k')) = _ from dot_cat x0 x1 x2 (ix2 b k)]
  exact sigma_host _

/-- The update gate at (b, j). -/
theorem gate_z (b : Fin 16384) (j : Fin 1024) :
    val_main_v14 (F := Ideal) x0 x1 x3 (ix2 b j)
      = Ideal.logistic (dot2 (fun k => x0 (ix2 b k)) (fun k => x1 (ix2 b k)) (fun k => upper x3 k j) (fun k => lower x3 k j)) := by
  rw [val_main_v14_apply, val_main_v13_apply, val_main_cst_2_apply, val_main_v12_apply, val_main_v11_apply, val_main_cst_1_apply,
    val_main_v10_apply, val_main_v9_apply, val_main_v8_apply]
  unfold val_main_v0
  rw [show (∑ k : Fin 2048, cat x0 x1 (lidx_main_v8 (ix2 b j) k) * x3 (ridx_main_v8 (ix2 b j) k)) = _ from dot_cat x0 x1 x3 (ix2 b j)]
  exact sigma_host _

/-- The candidate's sum at (b, j). -/
theorem cand_sum (b : Fin 16384) (j : Fin 1024) :
    val_main_v17 (F := Ideal) x0 x1 x2 x4 (ix2 b j)
      = dot2 (fun k => Ideal.logistic (dot2 (fun k' => x0 (ix2 b k')) (fun k' => x1 (ix2 b k')) (fun k' => upper x2 k' k) (fun k' => lower x2 k' k)) * x0 (ix2 b k))
          (fun k => x1 (ix2 b k)) (fun k => upper x4 k j) (fun k => lower x4 k j) := by
  rw [val_main_v17_apply]
  unfold val_main_v16
  rw [show (∑ k : Fin 2048, cat (val_main_v15 (F := Ideal) x0 x1 x2) x1 (lidx_main_v17 (ix2 b j) k) * x4 (ridx_main_v17 (ix2 b j) k)) = _
    from dot_cat (val_main_v15 (F := Ideal) x0 x1 x2) x1 x4 (ix2 b j)]
  refine congrArg (fun a => dot2 a (fun k => x1 (ix2 b k)) (fun k => upper x4 k j) (fun k => lower x4 k j)) (funext fun k => ?_)
  show val_main_v15 (F := Ideal) x0 x1 x2 (ix2 b k) = _
  rw [val_main_v15_apply, gate_r]
  rfl

/-- The reference's result array is `G` of the five arguments. -/
theorem ref_eq : val_main_v23 (F := Ideal) x0 x1 x2 x3 x4 = G x0 x1 x2 x3 x4 := by
  funext i
  obtain ⟨b, j, rfl⟩ : ∃ (b : Fin 16384) (j : Fin 1024), i = ix2 b j := ⟨i 0, i 1, eq_ix2 i⟩
  rw [G_ix2, val_main_v23_apply, val_main_v21_apply, val_main_v22_apply, val_main_v20_apply, val_main_v19_apply,
    val_main_cst_3_apply, val_main_v18_apply, gate_z, cand_sum]
  rfl

end Cert.Gru.Ref

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.Payload.lean ====
/-
  The kernel body's one stored value, read at an entry.

  The body loads a block of 512 rows of h and of x and the six half-matrices, forms the two gates' and the
  candidate's sums as products into a zero accumulator, and stores (1 − z) · h + z · tanh(…). Over the extended
  reals the changes of float format are the identity and a product into the zero accumulator is the plain sum over the
  contracted coordinate, so the value at row p and column q of the block is `cell` of row p of the two loaded blocks and
  the six loaded half-matrices.
-/
import proofs.«100389_j58402965291333_1_alg».proof.Proof.Gen.KernelIdeal.Skeleton
import proofs.«100389_j58402965291333_1_alg».proof.Proof.Spec
import proofs.«100389_j58402965291333_1_alg».proof.Proof.LibDotSum
import Idealize.ShloMosaic.Lib.Pipeline.Value

noncomputable section

namespace Cert.Gru

open Idealize.ShloMosaic Idealize.ShloMosaic.ValueIdx Cert.KernelIdeal Cert.KernelIdeal.Gen

/-- A block product of 512 rows against a half-matrix, the left operand narrowed to bf16 first: at (p, q) the sum
    over k of A (p, k) · B (k, q). -/
theorem block_dot (A : FVec Ideal S512x1024 .f32) (B : FVec Ideal S1024x1024 .bf16) (p : Fin 512) (q : Fin 1024) :
    matmul dot_S512x1024_S1024x1024_S512x1024_1_0_0_1_n_n none (truncf .bf16 A bitsLt_bf16_f32)
        (shapeCast S1024x1024 B shapeCasts_S1024x1024_S1024x1024) (constant S512x1024 .f32 0x00000000#32) (ix2 p q)
      = ∑ k : Fin 1024, A (ix2 p k) * B (ix2 k q) := by
  rw [shapeCast_self]
  exact (Cert.Lib.matmul_rc_apply dot_S512x1024_S1024x1024_S512x1024_1_0_0_1_n_n rfl rfl rfl rfl rfl rfl none
    (truncf .bf16 A bitsLt_bf16_f32) B p q).trans (Finset.sum_congr rfl fun k _ => rfl)

/-- The stored value at (p, q). -/
theorem pay_apply (v0 v1 : Vec Ideal S512x1024 .f32) (v4 v7 v11 v14 v22 v25 : Vec Ideal S1024x1024 .bf16)
    (p : Fin 512) (q : Fin 1024) :
    k0_pay1 v0 v1 v4 v7 v11 v14 v22 v25 (ix2 p q)
      = cell (fun k => v0 (ix2 p k)) (fun k => v1 (ix2 p k)) (fun k j => v4 (ix2 k j)) (fun k j => v7 (ix2 k j))
          (fun k j => v11 (ix2 k j)) (fun k j => v14 (ix2 k j)) (fun k j => v22 (ix2 k j)) (fun k j => v25 (ix2 k j)) q := by
  unfold k0_pay1 cell dot2
  simp only [addf_apply, mulf_apply, subf_apply, broadcast_apply, tanh, logistic, Ideal.tanh_def, Ideal.logistic_def, block_dot]
  rfl

end Cert.Gru

end
-- ==== Proof.KernelValue.lean ====
/-
  What the kernel's result array holds after the run: `G` of the five argument arrays.

  Point t of the 32-point grid works on rows 512 t … 512 t + 511. Its blocks of h and x are those rows of the
  arguments; its six weight blocks are, at every point, the whole half-matrices the host stretch before the call cut
  out of W_r, W_z and W_h (rows 0 … 1023 and rows 1024 … 2047 of each, narrowed to bf16, which changes nothing over
  the extended reals). So the value the body stores at (p, q) of its output block is `cell` of rows 512 t + p of h and
  x and the six halves: entry (512 t + p, q) of `G`. The 32 output blocks tile the [16384, 1024] result, row 512 t + p
  lying in the block of point t, so the array ends at `G`.
-/
import proofs.«100389_j58402965291333_1_alg».proof.Proof.Gen.KernelIdeal.Value
import proofs.«100389_j58402965291333_1_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.Gru.Kern

open Cert.KernelIdeal Cert.KernelIdeal.Gen Cert.KernelIdeal.Value Cert.Gru Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## The half-matrices the host stretch cuts out -/

/-- Rows 0 … 1023 of a weight matrix, narrowed to bf16, at (k, j): the matrix at (k, j). -/
theorem slice_up (W : FVec Ideal S2048x1024 .f32) (k j : Fin 1024) :
    (truncf .bf16 (extractStridedSlice S1024x1024 ![0, 0] W slices_S2048x1024_S1024x1024_0_0) bitsLt_bf16_f32 : FVec Ideal S1024x1024 .bf16) (ix2 k j)
      = upper W k j := by
  show extractStridedSlice S1024x1024 ![0, 0] W slices_S2048x1024_S1024x1024_0_0 (ix2 k j) = W (ix2 (up k) j)
  refine extractStridedSlice_apply _ W _ (ix2 k j) (ix2 (up k) j) fun a => ?_
  match a with
  | ⟨0, _⟩ => show k.val = 0 + k.val; omega
  | ⟨1, _⟩ => show j.val = 0 + j.val; omega

/-- Rows 1024 … 2047, narrowed to bf16, at (k, j): the matrix at (1024 + k, j). -/
theorem slice_dn (W : FVec Ideal S2048x1024 .f32) (k j : Fin 1024) :
    (truncf .bf16 (extractStridedSlice S1024x1024 ![1024, 0] W slices_S2048x1024_S1024x1024_1024_0) bitsLt_bf16_f32 : FVec Ideal S1024x1024 .bf16) (ix2 k j)
      = lower W k j := by
  show extractStridedSlice S1024x1024 ![1024, 0] W slices_S2048x1024_S1024x1024_1024_0 (ix2 k j) = W (ix2 (dn k) j)
  refine extractStridedSlice_apply _ W _ (ix2 k j) (ix2 (dn k) j) fun a => ?_
  match a with
  | ⟨0, _⟩ => show 1024 + k.val = 1024 + k.val; rfl
  | ⟨1, _⟩ => show j.val = 0 + j.val; omega

/-- The array window 2 stages, as the region finds it: the upper half of argument 2's matrix. -/
theorem V_rh (c : Dev nD) (k j : Fin 1024) :
    (V m c main_v6 : S1024x1024.Idx → Ideal .bf16) (ix2 k j) = upper (m ((c : Thread nD τ).loc main_arg2)) k j := by
  have e : @Eq (FVec Ideal S1024x1024 .bf16) (V m c main_v6)
      (truncf .bf16 (extractStridedSlice S1024x1024 ![0, 0] (m ((c : Thread nD τ).loc main_arg2)) slices_S2048x1024_S1024x1024_0_0) bitsLt_bf16_f32) := by
    dsimp only [V, hostOps0]; after_results
  rw [e]
  exact slice_up _ k j

/-- The array window 3 stages, as the region finds it: the lower half of argument 2's matrix. -/
theorem V_rx (c : Dev nD) (k j : Fin 1024) :
    (V m c main_v7 : S1024x1024.Idx → Ideal .bf16) (ix2 k j) = lower (m ((c : Thread nD τ).loc main_arg2)) k j := by
  have e : @Eq (FVec Ideal S1024x1024 .bf16) (V m c main_v7)
      (truncf .bf16 (extractStridedSlice S1024x1024 ![1024, 0] (m ((c : Thread nD τ).loc main_arg2)) slices_S2048x1024_S1024x1024_1024_0) bitsLt_bf16_f32) := by
    dsimp only [V, hostOps0]; after_results
  rw [e]
  exact slice_dn _ k j

/-- The array window 4 stages, as the region finds it: the upper half of argument 3's matrix. -/
theorem V_zh (c : Dev nD) (k j : Fin 1024) :
    (V m c main_v8 : S1024x1024.Idx → Ideal .bf16) (ix2 k j) = upper (m ((c : Thread nD τ).loc main_arg3)) k j := by
  have e : @Eq (FVec Ideal S1024x1024 .bf16) (V m c main_v8)
      (truncf .bf16 (extractStridedSlice S1024x1024 ![0, 0] (m ((c : Thread nD τ).loc main_arg3)) slices_S2048x1024_S1024x1024_0_0) bitsLt_bf16_f32) := by
    dsimp only [V, hostOps0]; after_results
  rw [e]
  exact slice_up _ k j

/-- The array window 5 stages, as the region finds it: the lower half of argument 3's matrix. -/
theorem V_zx (c : Dev nD) (k j : Fin 1024) :
    (V m c main_v9 : S1024x1024.Idx → Ideal .bf16) (ix2 k j) = lower (m ((c : Thread nD τ).loc main_arg3)) k j := by
  have e : @Eq (FVec Ideal S1024x1024 .bf16) (V m c main_v9)
      (truncf .bf16 (extractStridedSlice S1024x1024 ![1024, 0] (m ((c : Thread nD τ).loc main_arg3)) slices_S2048x1024_S1024x1024_1024_0) bitsLt_bf16_f32) := by
    dsimp only [V, hostOps0]; after_results
  rw [e]
  exact slice_dn _ k j

/-- The array window 6 stages, as the region finds it: the upper half of argument 4's matrix. -/
theorem V_hh (c : Dev nD) (k j : Fin 1024) :
    (V m c main_v10 : S1024x1024.Idx → Ideal .bf16) (ix2 k j) = upper (m ((c : Thread nD τ).loc main_arg4)) k j := by
  have e : @Eq (FVec Ideal S1024x1024 .bf16) (V m c main_v10)
      (truncf .bf16 (extractStridedSlice S1024x1024 ![0, 0] (m ((c : Thread nD τ).loc main_arg4)) slices_S2048x1024_S1024x1024_0_0) bitsLt_bf16_f32) := by
    dsimp only [V, hostOps0]; after_results
  rw [e]
  exact slice_up _ k j

/-- The array window 7 stages, as the region finds it: the lower half of argument 4's matrix. -/
theorem V_hx (c : Dev nD) (k j : Fin 1024) :
    (V m c main_v11 : S1024x1024.Idx → Ideal .bf16) (ix2 k j) = lower (m ((c : Thread nD τ).loc main_arg4)) k j := by
  have e : @Eq (FVec Ideal S1024x1024 .bf16) (V m c main_v11)
      (truncf .bf16 (extractStridedSlice S1024x1024 ![1024, 0] (m ((c : Thread nD τ).loc main_arg4)) slices_S2048x1024_S1024x1024_1024_0) bitsLt_bf16_f32) := by
    dsimp only [V, hostOps0]; after_results
  rw [e]
  exact slice_dn _ k j

/-! ## The windows' blocks -/

/-- The printed index maps over the grid: h, x and the result move one block of rows per point; the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Point t's block of h at (p, k): h at row 512 t + p. -/
theorem blk_h (c : Dev nD) (t : Fin cfg0.N) (p : Fin 512) (k : Fin 1024) (b : Fin 16384) (hb : b.val = 512 * t.val + p.val) :
    (iblk m c 0 t : Vec Ideal S512x1024 .f32) (ix2 p k) = (m ((c : Thread nD τ).loc main_arg0) : S16384x1024.Idx → Ideal .f32) (ix2 b k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = b.val; rw [e0, hb]; omega
  | ⟨1, _⟩ => show win0_0.index t (1 : Fin 2) * 1024 + 1 * k.val = k.val; rw [e1]; omega

/-- Point t's block of x at (p, k): x at row 512 t + p. -/
theorem blk_x (c : Dev nD) (t : Fin cfg0.N) (p : Fin 512) (k : Fin 1024) (b : Fin 16384) (hb : b.val = 512 * t.val + p.val) :
    (iblk m c 1 t : Vec Ideal S512x1024 .f32) (ix2 p k) = (m ((c : Thread nD τ).loc main_arg1) : S16384x1024.Idx → Ideal .f32) (ix2 b k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 512 + 1 * p.val = b.val; rw [e0, hb]; omega
  | ⟨1, _⟩ => show win0_1.index t (1 : Fin 2) * 1024 + 1 * k.val = k.val; rw [e1]; omega

/-- Window 2's block at any point is its whole array. -/
theorem blk_rh (c : Dev nD) (t : Fin cfg0.N) (k j : Fin 1024) :
    (iblk m c 2 t : Vec Ideal S1024x1024 .bf16) (ix2 k j) = upper (m ((c : Thread nD τ).loc main_arg2)) k j := by
  obtain ⟨-, -, -, -, e0, e1, -⟩ := idx_facts t
  refine Eq.trans ?_ (V_rh m c k j)
  unfold iblk
  rw [View.read_apply]
  show V m c main_v6 _ = V m c main_v6 _
  congr 1
  funext a
  apply Fin.ext
  match a with
  | ⟨0, _⟩ => show win0_2.index t (0 : Fin 2) * 1024 + 1 * k.val = k.val; rw [e0]; omega
  | ⟨1, _⟩ => show win0_2.index t (1 : Fin 2) * 1024 + 1 * j.val = j.val; rw [e1]; omega

/-- Window 3's block at any point is its whole array. -/
theorem blk_rx (c : Dev nD) (t : Fin cfg0.N) (k j : Fin 1024) :
    (iblk m c 3 t : Vec Ideal S1024x1024 .bf16) (ix2 k j) = lower (m ((c : Thread nD τ).loc main_arg2)) k j := by
  obtain ⟨-, -, -, -, -, -, e0, e1, -⟩ := idx_facts t
  refine Eq.trans ?_ (V_rx m c k j)
  unfold iblk
  rw [View.read_apply]
  show V m c main_v7 _ = V m c main_v7 _
  congr 1
  funext a
  apply Fin.ext
  match a with
  | ⟨0, _⟩ => show win0_3.index t (0 : Fin 2) * 1024 + 1 * k.val = k.val; rw [e0]; omega
  | ⟨1, _⟩ => show win0_3.index t (1 : Fin 2) * 1024 + 1 * j.val = j.val; rw [e1]; omega

/-- Window 4's block at any point is its whole array. -/
theorem blk_zh (c : Dev nD) (t : Fin cfg0.N) (k j : Fin 1024) :
    (iblk m c 4 t : Vec Ideal S1024x1024 .bf16) (ix2 k j) = upper (m ((c : Thread nD τ).loc main_arg3)) k j := by
  obtain ⟨-, -, -, -, -, -, -, -, e0, e1, -⟩ := idx_facts t
  refine Eq.trans ?_ (V_zh m c k j)
  unfold iblk
  rw [View.read_apply]
  show V m c main_v8 _ = V m c main_v8 _
  congr 1
  funext a
  apply Fin.ext
  match a with
  | ⟨0, _⟩ => show win0_4.index t (0 : Fin 2) * 1024 + 1 * k.val = k.val; rw [e0]; omega
  | ⟨1, _⟩ => show win0_4.index t (1 : Fin 2) * 1024 + 1 * j.val = j.val; rw [e1]; omega

/-- Window 5's block at any point is its whole array. -/
theorem blk_zx (c : Dev nD) (t : Fin cfg0.N) (k j : Fin 1024) :
    (iblk m c 5 t : Vec Ideal S1024x1024 .bf16) (ix2 k j) = lower (m ((c : Thread nD τ).loc main_arg3)) k j := by
  obtain ⟨-, -, -, -, -, -, -, -, -, -, e0, e1, -⟩ := idx_facts t
  refine Eq.trans ?_ (V_zx m c k j)
  unfold iblk
  rw [View.read_apply]
  show V m c main_v9 _ = V m c main_v9 _
  congr 1
  funext a
  apply Fin.ext
  match a with
  | ⟨0, _⟩ => show win0_5.index t (0 : Fin 2) * 1024 + 1 * k.val = k.val; rw [e0]; omega
  | ⟨1, _⟩ => show win0_5.index t (1 : Fin 2) * 1024 + 1 * j.val = j.val; rw [e1]; omega

/-- Window 6's block at any point is its whole array. -/
theorem blk_hh (c : Dev nD) (t : Fin cfg0.N) (k j : Fin 1024) :
    (iblk m c 6 t : Vec Ideal S1024x1024 .bf16) (ix2 k j) = upper (m ((c : Thread nD τ).loc main_arg4)) k j := by
  obtain ⟨-, -, -, -, -, -, -, -, -, -, -, -, e0, e1, -⟩ := idx_facts t
  refine Eq.trans ?_ (V_hh m c k j)
  unfold iblk
  rw [View.read_apply]
  show V m c main_v10 _ = V m c main_v10 _
  congr 1
  funext a
  apply Fin.ext
  match a with
  | ⟨0, _⟩ => show win0_6.index t (0 : Fin 2) * 1024 + 1 * k.val = k.val; rw [e0]; omega
  | ⟨1, _⟩ => show win0_6.index t (1 : Fin 2) * 1024 + 1 * j.val = j.val; rw [e1]; omega

/-- Window 7's block at any point is its whole array. -/
theorem blk_hx (c : Dev nD) (t : Fin cfg0.N) (k j : Fin 1024) :
    (iblk m c 7 t : Vec Ideal S1024x1024 .bf16) (ix2 k j) = lower (m ((c : Thread nD τ).loc main_arg4)) k j := by
  obtain ⟨-, -, -, -, -, -, -, -, -, -, -, -, -, -, e0, e1, -⟩ := idx_facts t
  refine Eq.trans ?_ (V_hx m c k j)
  unfold iblk
  rw [View.read_apply]
  show V m c main_v11 _ = V m c main_v11 _
  congr 1
  funext a
  apply Fin.ext
  match a with
  | ⟨0, _⟩ => show win0_7.index t (0 : Fin 2) * 1024 + 1 * k.val = k.val; rw [e0]; omega
  | ⟨1, _⟩ => show win0_7.index t (1 : Fin 2) * 1024 + 1 * j.val = j.val; rw [e1]; omega

/-! ## What a point writes back, and the array after the run -/

/-- `cell` depends on its rows and half-matrices entry by entry. -/
theorem cell_congr {hr hr' xr xr' : Fin 1024 → EReal} {w1 w1' w2 w2' w3 w3' w4 w4' w5 w5' w6 w6' : Fin 1024 → Fin 1024 → EReal}
    (h1 : ∀ k, hr k = hr' k) (h2 : ∀ k, xr k = xr' k) (g1 : ∀ k j, w1 k j = w1' k j) (g2 : ∀ k j, w2 k j = w2' k j)
    (g3 : ∀ k j, w3 k j = w3' k j) (g4 : ∀ k j, w4 k j = w4' k j) (g5 : ∀ k j, w5 k j = w5' k j) (g6 : ∀ k j, w6 k j = w6' k j)
    (q : Fin 1024) : cell hr xr w1 w2 w3 w4 w5 w6 q = cell hr' xr' w1' w2' w3' w4' w5' w6' q := by
  obtain rfl : hr = hr' := funext h1
  obtain rfl : xr = xr' := funext h2
  obtain rfl : w1 = w1' := funext fun k => funext (g1 k)
  obtain rfl : w2 = w2' := funext fun k => funext (g2 k)
  obtain rfl : w3 = w3' := funext fun k => funext (g3 k)
  obtain rfl : w4 = w4' := funext fun k => funext (g4 k)
  obtain rfl : w5 = w5' := funext fun k => funext (g5 k)
  obtain rfl : w6 = w6' := funext fun k => funext (g6 k)
  rfl

/-- The body's stored value at (p, q) of point t's block is `G` at row 512 t + p, column q. -/
theorem stored_eq (c : Dev nD) (t : Fin cfg0.N) (p : Fin 512) (q : Fin 1024) (b : Fin 16384) (hb : b.val = 512 * t.val + p.val) :
    k0_pay1 (iblk m c 0 t) (iblk m c 1 t) (iblk m c 2 t) (iblk m c 3 t) (iblk m c 4 t) (iblk m c 5 t) (iblk m c 6 t) (iblk m c 7 t) (ix2 p q)
      = G (m ((c : Thread nD τ).loc main_arg0)) (m ((c : Thread nD τ).loc main_arg1)) (m ((c : Thread nD τ).loc main_arg2)) (m ((c : Thread nD τ).loc main_arg3)) (m ((c : Thread nD τ).loc main_arg4)) (ix2 b q) := by
  refine (pay_apply (iblk m c 0 t) (iblk m c 1 t) (iblk m c 2 t) (iblk m c 3 t) (iblk m c 4 t) (iblk m c 5 t) (iblk m c 6 t) (iblk m c 7 t) p q).trans ?_
  rw [G_ix2]
  unfold out
  exact cell_congr (fun k => blk_h m c t p k b hb) (fun k => blk_x m c t p k b hb)
    (fun k j => blk_rh m c t k j) (fun k j => blk_rx m c t k j) (fun k j => blk_zh m c t k j) (fun k j => blk_zx m c t k j)
    (fun k j => blk_hh m c t k j) (fun k j => blk_hx m c t k j) q

/-- What point t writes back is block t of `G`. -/
theorem flushed_eq (c : Dev nD) (t : Fin cfg0.N) :
    (dats m 0 c).flushed 8 t = ((cfg0.win 8).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4))) := by
  rw [flushed8]
  unfold out0_8
  rw [View.canon_unit_zero hz]
  simp only [View.ld_unit_zero (S := S512x1024) hz, View.ld_unit_zero (S := S1024x1024) hz]
  obtain ⟨-, -, -, -, -, -, -, -, -, -, -, -, -, -, -, -, e0, e1⟩ := idx_facts t
  have hN : cfg0.N = 32 := N_0
  funext y
  have hy0 : (y 0).val < 512 := (y 0).isLt
  have hy1 : (y 1).val < 1024 := (y 1).isLt
  have ht : t.val < 32 := hN ▸ t.isLt
  show k0_pay1 (iblk m c 0 t) (iblk m c 1 t) (iblk m c 2 t) (iblk m c 3 t) (iblk m c 4 t) (iblk m c 5 t) (iblk m c 6 t) (iblk m c 7 t) y
    = G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y)
  have hy : y = ix2 (⟨(y 0).val, hy0⟩ : Fin 512) (⟨(y 1).val, hy1⟩ : Fin 1024) := funext fun a => by
    match a with
    | ⟨0, _⟩ => rfl
    | ⟨1, _⟩ => rfl
  have hemb : ((cfg0.win 8).blk t).view.emb y
      = ix2 (⟨512 * t.val + (y 0).val, by omega⟩ : Fin 16384) (⟨(y 1).val, hy1⟩ : Fin 1024) := by
    funext a
    apply Fin.ext
    match a with
    | ⟨0, _⟩ => show win0_8.index t (0 : Fin 2) * 512 + 1 * (y 0).val = 512 * t.val + (y 0).val; rw [e0]; omega
    | ⟨1, _⟩ => show win0_8.index t (1 : Fin 2) * 1024 + 1 * (y 1).val = (y 1).val; rw [e1]; omega
  rw [hemb]
  refine Eq.trans (congrArg _ hy) ?_
  exact stored_eq m c t ⟨(y 0).val, hy0⟩ ⟨(y 1).val, hy1⟩ ⟨512 * t.val + (y 0).val, by omega⟩ rfl

/-- An index of the result is in point t's block iff each coordinate is in the block's range on its axis. -/
theorem mem_blk (t : Fin cfg0.N) (i : S16384x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v12).slice (win0_8.rect t)).set ↔ _
  rw [View.set_slice_whole, Rect.mem_set_unit]
  exact Iff.rfl

/-- The result array after the run is `G` of the arguments: row r lies in the block of point r / 512. -/
theorem final (c : Dev nD) :
    (dats m 0 c).arrAt 8 cfg0.N = G (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 8 _ (fun t _ => flushed_eq m c t) fun i => by
    have hN : cfg0.N = 32 := N_0
    have hi0 : (i 0).val < 16384 := (i 0).isLt
    have hi1 : (i 1).val < 1024 := (i 1).isLt
    let t : Fin cfg0.N := ⟨(i 0).val / 512, by rw [hN]; omega⟩
    obtain ⟨-, -, -, -, -, -, -, -, -, -, -, -, -, -, -, -, e0, e1⟩ := idx_facts t
    have e0' : win0_8.index t (0 : Fin 2) = (i 0).val / 512 := e0
    refine ⟨t, flush0_8 t, ?_⟩
    rw [mem_blk]
    intro a
    match a with
    | ⟨0, _⟩ => show win0_8.index t (0 : Fin 2) * 512 ≤ (i 0).val ∧ (i 0).val < win0_8.index t (0 : Fin 2) * 512 + 512; rw [e0']; omega
    | ⟨1, _⟩ => show win0_8.index t (1 : Fin 2) * 1024 ≤ (i 1).val ∧ (i 1).val < win0_8.index t (1 : Fin 2) * 1024 + 1024; rw [e1]; omega

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v12) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.Gru.Kern

end
-- ==== Proof.lean ====
/-
  A fused GRU step against its plain reference, over the extended reals.

  The kernel tiles the batch into 32 blocks of 512 rows. For each block it forms the two gates
  r = σ(h · W_r↑ + x · W_r↓) and z = σ(h · W_z↑ + x · W_z↓), the candidate c = tanh((r ⊙ h) · W_h↑ + x · W_h↓) and
  stores (1 − z) ⊙ h + z ⊙ c, where W↑ and W↓ are the upper and lower 1024 rows of a [2048, 1024] weight matrix,
  cut out once before the call. The reference joins [h, x] (and [r ⊙ h, x]) into rows of length 2048 and multiplies by
  the whole matrices. The two agree because a sum over 2048 contracted columns splits at 1024 into the two halves'
  sums, with no condition on the terms, so the precondition is never opened; because narrowing to bf16 is the identity
  over the extended reals and a product into a zero accumulator is the plain sum; and because σ, one operation in the
  kernel, is 1 / (1 + e^(−u)) as the reference spells it.

  Spec.lean states the result as one function `G` of the five arguments; RefValue.lean shows the reference's
  result is `G`; Payload.lean reads the kernel body's stored value at an entry; KernelValue.lean shows the kernel's
  result array ends at `G`. The kernel's frames are the generated ones; the reference's frame is its run with the
  result dropped; there is no rewrite to account for between the kernel and its idealization.
-/
import proofs.«100389_j58402965291333_1_alg».proof.Defs
import proofs.«100389_j58402965291333_1_alg».proof.Proof.Gen.Kernel
import proofs.«100389_j58402965291333_1_alg».proof.Proof.Gen.Kernel.Skeleton
import proofs.«100389_j58402965291333_1_alg».proof.Proof.Gen.Kernel.Launch
import proofs.«100389_j58402965291333_1_alg».proof.Proof.Gen.Kernel.Points
import proofs.«100389_j58402965291333_1_alg».proof.Proof.Gen.Kernel.Frame
import proofs.«100389_j58402965291333_1_alg».proof.Proof.Gen.KernelIdeal
import proofs.«100389_j58402965291333_1_alg».proof.Proof.Gen.KernelIdeal.Skeleton
import proofs.«100389_j58402965291333_1_alg».proof.Proof.Gen.KernelIdeal.Launch
import proofs.«100389_j58402965291333_1_alg».proof.Proof.Gen.KernelIdeal.Points
import proofs.«100389_j58402965291333_1_alg».proof.Proof.Gen.KernelIdeal.Frame
import proofs.«100389_j58402965291333_1_alg».proof.Proof.Gen.ReferenceIdeal
import proofs.«100389_j58402965291333_1_alg».proof.Proof.Gen.Pre_finite_inputs
import proofs.«100389_j58402965291333_1_alg».proof.Proof.Gen.KernelIdeal.Value
import proofs.«100389_j58402965291333_1_alg».proof.Proof.Gen.ReferenceIdeal.Run
import proofs.«100389_j58402965291333_1_alg».proof.Proof.Gen.ReferenceIdeal.Read
import proofs.«100389_j58402965291333_1_alg».proof.Proof.RefValue
import proofs.«100389_j58402965291333_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `G` of the arguments, which agree. -/
theorem algebraic : Cert.algebraic_KernelIdeal_ReferenceIdeal := by
  intro m ρ m' ρ' _ hagree
  refine ⟨fun c => Cert.Gru.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.Gru.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v23_eq, Cert.Gru.Ref.ref_eq, a0, a1, a2, a3, a4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
